-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_

variable [Facts]

def fn {F : FTy → Type} [FloatOps F] (main_arg0 : FVec F S100000x128 .f32) (main_arg1 : IVec S2x1600000 32) (main_arg2 : FVec F S128x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  main_v8
-- ==== Kernel.lean ====
abbrev S100000x128 : Shape := ⟨2, ![100000, 128]⟩
abbrev S2x1600000 : Shape := ⟨2, ![2, 1600000]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩
abbrev S4000x128 : Shape := ⟨2, ![4000, 128]⟩
abbrev S4000x256 : Shape := ⟨2, ![4000, 256]⟩

abbrev nBuf : Space → Nat
  | .hbm => 21
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x256, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .f32⟩
  | .local _ .vmem, ⟨5, _⟩ => ⟨S4000x256, .f32⟩
  | .local _ .vmem, ⟨6, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S4000x256_S4000x256_0_0 : ∀ a, (![0, 0] : Fin 2 → Nat) a + S4000x256.size a ≤ S4000x256.size a
  h_S4000x256 : 0 < S4000x256.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x256_S4000x256_1_0_0_1_n_n_wf : DotDims.WF S4000x128 S128x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S100000x256.size a
  hwx0_3 : ∀ i : grid0.Coords, EltTy.bits .f32 = 32 ∨ (Rect.block (s := S100000x256) S4000x256.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x256 : Shape := ⟨2, ![128, 256]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x256 : Shape := ⟨2, ![100000, 256]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x256, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S100000x128, .f32⟩
  | .hbm, ⟨21, _⟩ => ⟨S100000x256, .f32⟩
  | .hbm, ⟨22, _⟩ => ⟨S_, .f32⟩
  | .hbm, ⟨23, _⟩ => ⟨S100000x256, .f32⟩
  | .hbm, ⟨24, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000x256 : S_.BroadcastsInDim S100000x256 (![] : Fin 0 → Fin S100000x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x256_S100000x256_1_0_0_1_n_n_wf : DotDims.WF S100000x128 S128x256 S100000x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.DenseRelu.lean ====
/-
  A dense layer followed by a rectifier, over the extended reals.

  For A of extents [M, K] and W of extents [K, N], the entry (r, c) of relu (A · W) is
  max (Σₖ A (r, k) · W (k, c), 0). Two spellings of that array are read here at an index. The block spelling adds
  two [M, K] arrays entry by entry, narrows both operands to a shorter float format (no change of value over the
  extended reals), multiplies them into a zero accumulator and takes the maximum with a splat of zero. The whole-array
  spelling is the general product followed by the maximum with a broadcast zero. Both are relu ((x + y) · w): the sum
  that a product contracts over is a sum over the one coordinate k, and a zero accumulator adds nothing.
-/
import proofs.«137982_j30116310679886_1_alg».proof.Proof.LibDotSum
import Idealize.ShloMosaic.Lib.Pipeline.Value

noncomputable section

namespace Cert.Gcn

open Idealize.ShloMosaic Idealize.ShloMosaic.ValueIdx

variable {M K N : Nat}

/-- relu (A · W), entry by entry: at (r, c) the maximum of Σₖ A (r, k) · W (k, c) and 0. -/
def denseRelu (A : FVec Ideal ⟨2, ![M, K]⟩ .f32) (W : FVec Ideal ⟨2, ![K, N]⟩ .f32) : FVec Ideal ⟨2, ![M, N]⟩ .f32 :=
  fun i => max (∑ k : Fin K, A (ix2 (i 0) k) * W (ix2 k (i 1))) 0

theorem denseRelu_apply (A : FVec Ideal ⟨2, ![M, K]⟩ .f32) (W : FVec Ideal ⟨2, ![K, N]⟩ .f32) (r : Fin M) (c : Fin N) :
    denseRelu A W (ix2 r c) = max (∑ k : Fin K, A (ix2 r k) * W (ix2 k c)) 0 := rfl

/-- The block spelling at (r, c): the rectified product of the entrywise sum x + y with w. -/
theorem block_apply (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (hsc : (⟨2, ![M, K]⟩ : Shape).ShapeCasts ⟨2, ![M, K]⟩) (hb : FTy.bits .bf16 < FTy.bits .f32)
    (x y : FVec Ideal ⟨2, ![M, K]⟩ .f32) (w : FVec Ideal ⟨2, ![K, N]⟩ .f32) (r : Fin M) (c : Fin N) :
    maximumf (matmul d none (truncf .bf16 (addf x (shapeCast ⟨2, ![M, K]⟩ y hsc)) hb) (truncf .bf16 w hb)
        (constant ⟨2, ![M, N]⟩ .f32 0x00000000#32)) (broadcast ⟨2, ![M, N]⟩ (Scalar.ofBits .f32 0x00000000#32)) (ix2 r c)
      = denseRelu (addf x y) w (ix2 r c) := by
  rw [shapeCast_self, denseRelu_apply]
  show max (matmul d none (truncf .bf16 (addf x y) hb) (truncf .bf16 w hb) (constant ⟨2, ![M, N]⟩ .f32 0x00000000#32) (ix2 r c))
      (Ideal.ofBits .f32 0x00000000#32) = _
  rw [Cert.Lib.matmul_rc_apply d hlc hrc hln hrn hlb hrb, Ideal.ofBits_zero_f32]
  rfl

/-- The whole-array spelling at (r, c): the same rectified product. -/
theorem host_apply (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (a : FVec Ideal ⟨2, ![M, K]⟩ .f32) (w : FVec Ideal ⟨2, ![K, N]⟩ .f32) (z : FVec Ideal ⟨2, ![M, N]⟩ .f32)
    (hz : ∀ i, z i = Ideal.ofBits .f32 0x00000000#32) (r : Fin M) (c : Fin N) :
    maximumf (Host.dotGeneral d none a w) z (ix2 r c) = denseRelu a w (ix2 r c) := by
  rw [denseRelu_apply]
  show max (Host.dotGeneral d none a w (ix2 r c)) (z (ix2 r c)) = _
  rw [Cert.Lib.dotGeneral_rc_apply d hlc hrc hln hrn hlb hrb, hz, Ideal.ofBits_zero_f32]

end Cert.Gcn

end
-- ==== Proof.KernelValue.lean ====
/-
  What the kernel's result array holds after the run, over the extended reals.

  The grid has 25 points; point t stages rows 4000·t … 4000·t + 3999 of the node features and of the neighbour sums
  (both of extents [100000, 128]), the whole weight matrix [128, 256], and writes back rows 4000·t … 4000·t + 3999 of
  the result [100000, 256]. Its body adds the two row blocks, multiplies by the weights and rectifies. Entry (r, q) of a
  block therefore depends on row r of the two input blocks and column q of the weights only, which are row 4000·t + r
  of the arrays and column q of the weights: the block is the restriction of ONE whole-array function, the rectified
  product of (features + neighbour sums) with the weights. The 25 blocks tile the result's rows, so the array ends
  holding that function everywhere. The block computation is stated for any three arrays; the arrays the region finds
  are put in at the end.
-/
import proofs.«137982_j30116310679886_1_alg».proof.Proof.Gen.KernelIdeal.Value
import proofs.«137982_j30116310679886_1_alg».proof.Proof.DenseRelu

noncomputable section

namespace Cert.KernelIdeal.Layer

open Cert.KernelIdeal Cert.KernelIdeal.Gen Idealize.ShloMosaic Idealize.ShloMosaic.TcCoe Idealize.SL.Sem
open Idealize.ShloMosaic.Pipeline (Dat)
open Idealize.ShloMosaic.ValueIdx

theorem origin : (![0, 0] : Fin 2 → Nat) = fun _ => 0 := funext fun a => by fin_cases a <;> rfl

/-- The layer's output for features A0, neighbour sums A1 and weights A2: relu ((A0 + A1) · A2). -/
def layerOf (A0 A1 : FVec Ideal S100000x128 .f32) (A2 : FVec Ideal S128x256 .f32) : FVec Ideal S100000x256 .f32 :=
  Cert.Gcn.denseRelu (M := 100000) (K := 128) (N := 256) (addf A0 A1) A2

/-- The body's stored value at (r, q) of a block: the rectified product of the two loaded row blocks' sum with the
    loaded weights. -/
theorem stored_apply (x0 x1 : Vec Ideal S4000x128 .f32) (x2 : Vec Ideal S128x256 .f32) (r : Fin 4000) (q : Fin 256) :
    k0_pay1 x0 x1 x2 (ix2 r q) = Cert.Gcn.denseRelu (M := 4000) (K := 128) (N := 256) (addf x0 x1) x2 (ix2 r q) := by
  unfold k0_pay1
  exact Cert.Gcn.block_apply dot_S4000x128_S128x256_S4000x256_1_0_0_1_n_n rfl rfl rfl rfl rfl rfl
    shapeCasts_S4000x128_S4000x128 bitsLt_bf16_f32 x0 x1 x2 r q

/-- The block indices over the grid: the two row-blocked inputs move with the output along the rows and sit at column
    block 0; the weights stay at block (0, 0); the output has one column block. -/
theorem block_indices : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every row block 0 … 24 of the output is some point's. -/
theorem block_onto : ∀ b : Fin 25, ∃ t : Fin cfg0.N, win0_3.index t = ![b.val, 0] :=
  (by decide +kernel : ∀ b : Fin 25, ∃ t : Fin grid0.N, win0_3.index t = ![b.val, 0])

section Blocks

variable (A0 A1 : FVec Ideal S100000x128 .f32) (A2 : FVec Ideal S128x256 .f32)

/-- Row r, column k of the first window's block at point t is the array at the output block's row and column k. -/
theorem rows_block0 (t : Fin cfg0.N) (r : Fin 4000) (k : Fin 128) (q : Fin 256) :
    ((cfg0.win 0).blk t).view.read (Elt Ideal) A0 (ix2 r k) = A0 (ix2 ((((cfg0.win 3).blk t).view.emb (ix2 r q)) 0) k) := by
  obtain ⟨e0, e1, e2, e3, e4, e5, e6⟩ := block_indices t
  have h : ((cfg0.win 0).blk t).view.emb (ix2 r k) = ix2 ((((cfg0.win 3).blk t).view.emb (ix2 r q)) 0) k := by
    funext a; apply Fin.ext
    match a with
    | ⟨0, _⟩ => show win0_0.index t (0 : Fin 2) * 4000 + 1 * r.val = win0_3.index t (0 : Fin 2) * 4000 + 1 * r.val; omega
    | ⟨1, _⟩ => show win0_0.index t (1 : Fin 2) * 128 + 1 * k.val = k.val; omega
  show A0 (((cfg0.win 0).blk t).view.emb (ix2 r k)) = _
  exact congrArg A0 h

/-- The same for the second window's block. -/
theorem rows_block1 (t : Fin cfg0.N) (r : Fin 4000) (k : Fin 128) (q : Fin 256) :
    ((cfg0.win 1).blk t).view.read (Elt Ideal) A1 (ix2 r k) = A1 (ix2 ((((cfg0.win 3).blk t).view.emb (ix2 r q)) 0) k) := by
  obtain ⟨e0, e1, e2, e3, e4, e5, e6⟩ := block_indices t
  have h : ((cfg0.win 1).blk t).view.emb (ix2 r k) = ix2 ((((cfg0.win 3).blk t).view.emb (ix2 r q)) 0) k := by
    funext a; apply Fin.ext
    match a with
    | ⟨0, _⟩ => show win0_1.index t (0 : Fin 2) * 4000 + 1 * r.val = win0_3.index t (0 : Fin 2) * 4000 + 1 * r.val; omega
    | ⟨1, _⟩ => show win0_1.index t (1 : Fin 2) * 128 + 1 * k.val = k.val; omega
  show A1 (((cfg0.win 1).blk t).view.emb (ix2 r k)) = _
  exact congrArg A1 h

/-- Row k, column q of the third window's block at any point is the array at row k and the output block's column. -/
theorem cols_block2 (t : Fin cfg0.N) (r : Fin 4000) (k : Fin 128) (q : Fin 256) :
    ((cfg0.win 2).blk t).view.read (Elt Ideal) A2 (ix2 k q) = A2 (ix2 k ((((cfg0.win 3).blk t).view.emb (ix2 r q)) 1)) := by
  obtain ⟨e0, e1, e2, e3, e4, e5, e6⟩ := block_indices t
  have h : ((cfg0.win 2).blk t).view.emb (ix2 k q) = ix2 k ((((cfg0.win 3).blk t).view.emb (ix2 r q)) 1) := by
    funext a; apply Fin.ext
    match a with
    | ⟨0, _⟩ => show win0_2.index t (0 : Fin 2) * 128 + 1 * k.val = k.val; omega
    | ⟨1, _⟩ => show win0_2.index t (1 : Fin 2) * 256 + 1 * q.val = win0_3.index t (1 : Fin 2) * 256 + 1 * q.val; omega
  show A2 (((cfg0.win 2).blk t).view.emb (ix2 k q)) = _
  exact congrArg A2 h

/-- The body's result on the three arrays' blocks at point t is block t of the layer's output on the arrays. -/
theorem block_value (t : Fin cfg0.N) :
    (cfg0.win 3).cut (grid0.coords t) (k0_pay1 (((cfg0.win 0).blk t).view.read (Elt Ideal) A0)
        (((cfg0.win 1).blk t).view.read (Elt Ideal) A1) (((cfg0.win 2).blk t).view.read (Elt Ideal) A2))
      = ((cfg0.win 3).blk t).view.read (Elt Ideal) (layerOf A0 A1 A2) := by
  funext j
  obtain ⟨r, q, rfl⟩ : ∃ (r : Fin 4000) (q : Fin 256), j = ix2 r q := ⟨j 0, j 1, eq_ix2 j⟩
  show k0_pay1 (((cfg0.win 0).blk t).view.read (Elt Ideal) A0) (((cfg0.win 1).blk t).view.read (Elt Ideal) A1)
      (((cfg0.win 2).blk t).view.read (Elt Ideal) A2) (ix2 r q) = layerOf A0 A1 A2 (((cfg0.win 3).blk t).view.emb (ix2 r q))
  refine (stored_apply (((cfg0.win 0).blk t).view.read (Elt Ideal) A0) (((cfg0.win 1).blk t).view.read (Elt Ideal) A1)
    (((cfg0.win 2).blk t).view.read (Elt Ideal) A2) r q).trans ?_
  unfold layerOf Cert.Gcn.denseRelu
  refine congrArg (fun s : EReal => max s 0) (Finset.sum_congr rfl fun k _ => ?_)
  exact congrArg₂ (fun a b : EReal => a * b)
    (congrArg₂ (fun a b : EReal => a + b) (rows_block0 A0 t r k q) (rows_block1 A1 t r k q))
    (cols_block2 A2 t r k q)

end Blocks

variable (m : (ℓ : Loc nD τ sig) → Buf (Elt Ideal) ℓ) (ρ : Dev nD → PrngReg)

/-- The layer's output on the three arrays as the region finds them. -/
def layer (c : Dev nD) : FVec Ideal S100000x256 .f32 :=
  layerOf (V m c (Pipeline.arrRef spec0 0)) (V m c (Pipeline.arrRef spec0 1)) (V m c (Pipeline.arrRef spec0 2))

/-- A window's block at a point is its array read through the block. -/
theorem iblk_eq (c : Dev nD) (w : Fin cfg0.W) (t : Fin cfg0.N) :
    iblk m c w t = ((cfg0.win w).blk t).view.read (Elt Ideal) (V m c (Pipeline.arrRef spec0 w)) := rfl

/-- What point t writes back is block t of the layer's output. -/
theorem flushed_eq (c : Dev nD) (t : Fin cfg0.N) :
    (dats m 0 c).flushed 3 t = ((cfg0.win 3).blk t).view.read (Elt Ideal) (layer m c) := by
  rw [Cert.KernelIdeal.Value.flushed3]
  unfold out0_3 layer
  rw [View.canon_unit_zero origin]
  simp only [View.ld_unit_zero (S := S4000x128) origin, View.ld_unit_zero (S := S128x256) origin]
  rw [iblk_eq m c 0 t, iblk_eq m c 1 t, iblk_eq m c 2 t]
  exact block_value (V m c (Pipeline.arrRef spec0 0)) (V m c (Pipeline.arrRef spec0 1)) (V m c (Pipeline.arrRef spec0 2)) t

/-- An index of the result is in point t's block iff each coordinate is in the block's range on its axis. -/
theorem mem_block (t : Fin cfg0.N) (i : S100000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v14).slice (win0_3.rect t)).set ↔ _
  rw [View.set_slice_whole, Rect.mem_set_unit]
  exact Iff.rfl

/-- Every index of the result is in the block of the point that handles its row: row r belongs to row block r / 4000. -/
theorem covered (i : S100000x256.Idx) :
    ∃ t : Fin cfg0.N, (cfg0.win 3).flush t = true ∧ i ∈ ((cfg0.win 3).blk t).view.set := by
  have hi0 : (i 0).val < 100000 := (i 0).isLt
  have hi1 : (i 1).val < 256 := (i 1).isLt
  obtain ⟨t, ht⟩ := block_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 256 ≤ (i 1).val ∧ (i 1).val < win0_3.index t (1 : Fin 2) * 256 + 256; omega

/-- The result array after the run is the layer's output. -/
theorem final (c : Dev nD) : (dats m 0 c).arrAt 3 cfg0.N = layer m c :=
  (dats m 0 c).arrAt_eq_of_cover 3 (layer m c) (fun t _ => flushed_eq m c t) covered

/-- Every weakly fair execution ends with the result at the layer's output and the arguments unchanged. -/
theorem run : θ_run defs (onTc (τ := τ) (main (F := Ideal))) ⟨m, fun _ => 0, ρ⟩ fun r => ∀ c : Dev nD,
      r.2.mem ((c : Thread nD τ).loc main_v14) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Layer

end
-- ==== Proof.KernelPrefix.lean ====
/-
  The neighbour sums the kernel's program forms before its region, as one function of the node features and the edge
  list.

  Row 0 of the edge list holds each edge's source node and row 1 its destination. A negative source index s is read as
  s + 100000. Each edge contributes the source node's feature row, and the contributions are added into the
  destination node's row of an array that starts at zero. The region finds that array, with nothing in between.
-/
import proofs.«137982_j30116310679886_1_alg».proof.Proof.Gen.KernelIdeal.Frame
import Idealize.ShloMosaic.Lib.StableHlo.Run
import Idealize.ShloMosaic.PureOps.Ideal

noncomputable section

namespace Cert.KernelIdeal.Prefix

open Cert.KernelIdeal Cert.KernelIdeal.Gen Idealize.ShloMosaic Idealize.ShloMosaic.TcCoe Idealize.SL.Sem Idealize.ShloMosaic.StableHlo

/-- The source column of the edge list, as a vector of 1600000 indices. -/
def sources (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The sum, per destination node, of the feature rows of the edges' source nodes. -/
def neighbourSum (h : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast _ (extractStridedSlice S1x1600000 ![1, 0] e slices_S2x1600000_S1x1600000_1_0) shapeCasts_S1x1600000_S1600000))
    (Host.gather gather_S100000x128_S1600000x1_S1600000x128_1_0_n_n_0_1_1128 h
      (broadcastInDim S1600000x1 ![0] bcast_S1600000_S1600000x1_0
        (select (cmpi .slt (sources e) (broadcastInDim S1600000 ![] bcast_S_S1600000 (constantI S_ 32 0#32)))
          (addi (sources e) (broadcastInDim S1600000 ![] bcast_S_S1600000 (constantI S_ 32 100000#32)))
          (sources e))))

variable (m : (ℓ : Loc nD τ sig) → Buf (Elt Ideal) ℓ)

/-- The array the region's second window stages is the neighbour sums of the launch arguments. -/
theorem staged_sums (c : Dev nD) :
    V m c main_v13 = neighbourSum (m ((c : Thread nD τ).loc main_arg0)) (m ((c : Thread nD τ).loc main_arg1)) := by
  dsimp only [V, hostOps0]
  after_results
  rfl

end Cert.KernelIdeal.Prefix

end
-- ==== Proof.RefValue.lean ====
/-
  What the reference computes, over the extended reals, as one function of its three arguments.

  Its last three stages are the entrywise sum of the node features and the neighbour sums, the product of that sum with
  the weights, and the maximum with a broadcast zero. Entry (r, q) of the result is therefore
  max (Σₖ (features + neighbour sums) (r, k) · weights (k, q), 0); the stage that forms the neighbour sums (a gather of
  rows followed by a scatter-add) is carried along unopened.
-/
import proofs.«137982_j30116310679886_1_alg».proof.Proof.Gen.ReferenceIdeal.Read
import proofs.«137982_j30116310679886_1_alg».proof.Proof.DenseRelu

noncomputable section

namespace Cert.ReferenceIdeal.Layer

open Cert.ReferenceIdeal Cert.ReferenceIdeal.Gen Cert.ReferenceIdeal.Read Idealize.ShloMosaic Idealize.ShloMosaic.ValueIdx

/-- The broadcast zero of the rectifier is zero at every index. -/
theorem zero_apply (i : S100000x256.Idx) : val_main_call0_v0 (F := Ideal) i = Ideal.ofBits .f32 0x00000000#32 := by
  rw [val_main_call0_v0_apply]; rfl

/-- The reference's result is relu ((features + neighbour sums) · weights). -/
theorem result_eq (x0 : (⟨S100000x128, .f32⟩ : BufTy).Contents (Elt Ideal)) (x1 : (⟨S2x1600000, .i32⟩ : BufTy).Contents (Elt Ideal))
    (x2 : (⟨S128x256, .f32⟩ : BufTy).Contents (Elt Ideal)) :
    val_main_v16 (F := Ideal) x0 x1 x2
      = Cert.Gcn.denseRelu (M := 100000) (K := 128) (N := 256) (addf x0 (val_main_v13 (F := Ideal) x0 x1)) x2 := by
  funext i
  obtain ⟨r, q, rfl⟩ : ∃ (r : Fin 100000) (q : Fin 256), i = ix2 r q := ⟨i 0, i 1, eq_ix2 i⟩
  unfold val_main_v16 val_main_v15 val_main_v14
  exact Cert.Gcn.host_apply dot_S100000x128_S128x256_S100000x256_1_0_0_1_n_n rfl rfl rfl rfl rfl rfl
    (addf x0 (val_main_v13 (F := Ideal) x0 x1)) x2 (val_main_call0_v0 (F := Ideal)) zero_apply r q

end Cert.ReferenceIdeal.Layer

end
-- ==== Proof.Bridge.lean ====
/-
  The kernel's result, as a function of the launch arguments, in the reference's own words.

  The kernel's region finds the node features and the weights as launched, and its second window's array holding
  the neighbour sums that the program formed before the region. The reference forms its neighbour sums by the same
  operations on the same two arguments: a slice and a reshape of each row of the edge list, the wrap of negative
  source indices, the gather of feature rows and the scatter-add into zeros. So the kernel's result is
  relu ((features + neighbour sums) · weights) with the reference's neighbour sums.
-/
import proofs.«137982_j30116310679886_1_alg».proof.Proof.KernelValue
import proofs.«137982_j30116310679886_1_alg».proof.Proof.KernelPrefix
import proofs.«137982_j30116310679886_1_alg».proof.Proof.RefValue

noncomputable section

namespace Cert.Proof.Bridge

open Idealize.ShloMosaic Idealize.ShloMosaic.TcCoe Idealize.SL.Sem

/-- Both programs form the neighbour sums by the same operations of the features and the edge list. -/
theorem sums_eq (h : (⟨Cert.KernelIdeal.S100000x128, .f32⟩ : BufTy).Contents (Elt Ideal))
    (e : (⟨Cert.KernelIdeal.S2x1600000, .i32⟩ : BufTy).Contents (Elt Ideal)) :
    Cert.KernelIdeal.Prefix.neighbourSum h e = Cert.ReferenceIdeal.Read.val_main_v13 (F := Ideal) h e := rfl

open Cert.KernelIdeal Cert.KernelIdeal.Gen in
/-- The kernel's result is relu ((features + neighbour sums) · weights) of the launch arguments. -/
theorem layer_args (m : (ℓ : Loc nD τ sig) → Buf (Elt Ideal) ℓ) (c : Dev nD) :
    Cert.KernelIdeal.Layer.layer m c
      = Cert.Gcn.denseRelu (M := 100000) (K := 128) (N := 256)
          (addf (m ((c : Thread nD τ).loc main_arg0))
            (Cert.ReferenceIdeal.Read.val_main_v13 (F := Ideal) (m ((c : Thread nD τ).loc main_arg0)) (m ((c : Thread nD τ).loc main_arg1))))
          (m ((c : Thread nD τ).loc main_arg2)) := by
  unfold Cert.KernelIdeal.Layer.layer Cert.KernelIdeal.Layer.layerOf
  rw [show V m c (Pipeline.arrRef spec0 0) = m ((c : Thread nD τ).loc main_arg0) from V_main_arg0 m c,
    show V m c (Pipeline.arrRef spec0 1) = Cert.KernelIdeal.Prefix.neighbourSum (m ((c : Thread nD τ).loc main_arg0)) (m ((c : Thread nD τ).loc main_arg1)) from Cert.KernelIdeal.Prefix.staged_sums m c,
    show V m c (Pipeline.arrRef spec0 2) = m ((c : Thread nD τ).loc main_arg2) from V_main_arg2 m c,
    sums_eq]

end Cert.Proof.Bridge

end
-- ==== Proof.lean ====
/-
  One graph-convolution layer, out = relu ((H + S) · W), where H [100000, 128] holds the node features, W [128, 256] the
  weights, and S [100000, 128] the neighbour sums: row v of S is the sum of the rows H (src e) over the edges e of
  the edge list [2, 1600000] whose destination is v.

  Both programs form S by the same operations on the launch arguments before anything else. The kernel then runs a
  grid of 25 points over row blocks of 4000: each point adds its rows of H and S, multiplies the sum by W into a zero
  accumulator and takes the maximum with zero, after narrowing both operands to a shorter float format, which over the
  extended reals changes nothing. The reference adds H and S whole, takes the general product with W and the maximum
  with zero. Over the extended reals entry (r, q) of either result is max (Σₖ (H (r, k) + S (r, k)) · W (k, q), 0):
  the same sum over the same 128 terms, so no law beyond the definitions of the two products is used and the
  finiteness of the inputs is never opened.

  The modules: DenseRelu (the function relu (A · W) and the two spellings read at an index), KernelValue (every
  block the kernel writes is a block of that function, and the blocks tile the result), KernelPrefix (the array the
  kernel's second window stages is S), RefValue (the reference's result is that function), Bridge (the two S agree).
  Nothing was rewritten when the kernel's text was read over the extended reals, so that conjunct is trivial.
-/
import proofs.«137982_j30116310679886_1_alg».proof.Defs
import proofs.«137982_j30116310679886_1_alg».proof.Proof.Gen.Kernel
import proofs.«137982_j30116310679886_1_alg».proof.Proof.Gen.Kernel.Skeleton
import proofs.«137982_j30116310679886_1_alg».proof.Proof.Gen.Kernel.Launch
import proofs.«137982_j30116310679886_1_alg».proof.Proof.Gen.Kernel.Points
import proofs.«137982_j30116310679886_1_alg».proof.Proof.Gen.Kernel.Frame
import proofs.«137982_j30116310679886_1_alg».proof.Proof.Gen.KernelIdeal
import proofs.«137982_j30116310679886_1_alg».proof.Proof.Gen.KernelIdeal.Skeleton
import proofs.«137982_j30116310679886_1_alg».proof.Proof.Gen.KernelIdeal.Launch
import proofs.«137982_j30116310679886_1_alg».proof.Proof.Gen.KernelIdeal.Points
import proofs.«137982_j30116310679886_1_alg».proof.Proof.Gen.KernelIdeal.Frame
import proofs.«137982_j30116310679886_1_alg».proof.Proof.Gen.ReferenceIdeal
import proofs.«137982_j30116310679886_1_alg».proof.Proof.Gen.Pre_finite_inputs
import proofs.«137982_j30116310679886_1_alg».proof.Proof.Gen.KernelIdeal.Value
import proofs.«137982_j30116310679886_1_alg».proof.Proof.Gen.ReferenceIdeal.Run
import proofs.«137982_j30116310679886_1_alg».proof.Proof.Gen.ReferenceIdeal.Read
import proofs.«137982_j30116310679886_1_alg».proof.Proof.Bridge
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of whole-array operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From arguments that agree, both programs end with relu ((H + S) · W) in their result arrays. -/
theorem algebraic : Cert.algebraic_KernelIdeal_ReferenceIdeal := by
  intro m ρ m' ρ' _ hagree
  refine ⟨fun c => Cert.KernelIdeal.Layer.layer m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Layer.result_eq,
    (hagree c).1, (hagree c).2.1, (hagree c).2.2]
  exact (Cert.Proof.Bridge.layer_args m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
